-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x300 : Shape := ⟨2, ![131072, 300]⟩
abbrev S131072x17 : Shape := ⟨2, ![131072, 17]⟩
abbrev S512x300 : Shape := ⟨2, ![512, 300]⟩
abbrev S512 : Shape := ⟨1, ![512]⟩
abbrev S2x512 : Shape := ⟨2, ![2, 512]⟩
abbrev S2 : Shape := ⟨1, ![2]⟩
abbrev S_ : Shape := ⟨0, ![]⟩

class Facts : Prop where
  bcast_S_S131072x300 : S_.BroadcastsInDim S131072x300 (![] : Fin 0 → Fin S131072x300.rank)
  reducesTo_S131072x300_S_d0_1 : S131072x300.ReducesTo [0, 1] S_
  h_S_ : 0 < S_.numel
  bcast_S_S512x300 : S_.BroadcastsInDim S512x300 (![] : Fin 0 → Fin S512x300.rank)
  reducesTo_S512x300_S_d0_1 : S512x300.ReducesTo [0, 1] S_
  bcast_S_S512 : S_.BroadcastsInDim S512 (![] : Fin 0 → Fin S512.rank)
  reducesTo_S512_S_d0 : S512.ReducesTo [0] S_
  bcast_S_S2x512 : S_.BroadcastsInDim S2x512 (![] : Fin 0 → Fin S2x512.rank)
  reducesTo_S2x512_S_d0_1 : S2x512.ReducesTo [0, 1] S_
  bcast_S_S2 : S_.BroadcastsInDim S2 (![] : Fin 0 → Fin S2.rank)
  reducesTo_S2_S_d0 : S2.ReducesTo [0] S_
  bcast_S_S131072x17 : S_.BroadcastsInDim S131072x17 (![] : Fin 0 → Fin S131072x17.rank)
  reducesTo_S131072x17_S_d0_1 : S131072x17.ReducesTo [0, 1] S_

variable [Facts]

def fn_part1 {F : FTy → Type} [FloatOps F] (main_arg1 : IVec S131072x17 32) (main_arg5 : FVec F S2 .f32) (main_v13 : IVec S_ 1) (main_v16 : IVec S2x512 1) : IVec S_ 1 :=
  let main_c_5 : IVec S_ 1 := constantI S_ 1 1#1
  let main_v17 : IVec S_ 1 := (fun x v => Host.reduce IntOp.andi x v reducesTo_S2x512_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  let main_c_8 : IVec S_ 32 := constantI S_ 32 0#32
  let main_v24 : IVec S131072x17 32 := broadcastInDim S131072x17 ![] bcast_S_S131072x17 main_c_8
  let main_v25 : IVec S131072x17 1 := cmpi .sge main_arg1 main_v24
  let main_c_9 : IVec S_ 1 := constantI S_ 1 1#1
  let main_v26 : IVec S_ 1 := (fun x v => Host.reduce IntOp.andi x v reducesTo_S131072x17_S_d0_1 h_S_) main_v25 main_c_9
  let main_v27 : IVec S_ 1 := andi main_v23 main_v26
  let main_c_10 : IVec S_ 32 := constantI S_ 32 2#32
  let main_v28 : IVec S131072x17 32 := broadcastInDim S131072x17 ![] bcast_S_S131072x17 main_c_10
  let main_v29 : IVec S131072x17 1 := cmpi .slt main_arg1 main_v28
  let main_c_11 : IVec S_ 1 := constantI S_ 1 1#1
  let main_v30 : IVec S_ 1 := (fun x v => Host.reduce IntOp.andi x v reducesTo_S131072x17_S_d0_1 h_S_) main_v29 main_c_11
  let main_v31 : IVec S_ 1 := andi main_v27 main_v30
  main_v31

def fn {F : FTy → Type} [FloatOps F] (main_arg0 : FVec F S131072x300 .f32) (main_arg1 : IVec S131072x17 32) (main_arg2 : FVec F S512x300 .f32) (main_arg3 : FVec F S512 .f32) (main_arg4 : FVec F S2x512 .f32) (main_arg5 : FVec F S2 .f32) : IVec S_ 1 :=
  let main_v0 : FVec F S131072x300 .f32 := Host.absf main_arg0
  let main_cst : FVec F S_ .f32 := constant S_ .f32 0x7F800000#32
  let main_v1 : FVec F S131072x300 .f32 := broadcastInDim S131072x300 ![] bcast_S_S131072x300 main_cst
  let main_v2 : IVec S131072x300 1 := cmpf .olt main_v0 main_v1
  let main_c : IVec S_ 1 := constantI S_ 1 1#1
  let main_v3 : IVec S_ 1 := (fun x v => Host.reduce IntOp.andi x v reducesTo_S131072x300_S_d0_1 h_S_) main_v2 main_c
  let main_v4 : FVec F S512x300 .f32 := Host.absf main_arg2
  let main_cst_0 : FVec F S_ .f32 := constant S_ .f32 0x7F800000#32
  let main_v5 : FVec F S512x300 .f32 := broadcastInDim S512x300 ![] bcast_S_S512x300 main_cst_0
  let main_v6 : IVec S512x300 1 := cmpf .olt main_v4 main_v5
  let main_c_1 : IVec S_ 1 := constantI S_ 1 1#1
  let main_v7 : IVec S_ 1 := (fun x v => Host.reduce IntOp.andi x v reducesTo_S512x300_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S2x512 .f32 := Host.absf main_arg4
  let main_cst_4 : FVec F S_ .f32 := constant S_ .f32 0x7F800000#32
  let main_v15 : FVec F S2x512 .f32 := broadcastInDim S2x512 ![] bcast_S_S2x512 main_cst_4
  let main_v16 : IVec S2x512 1 := cmpf .olt main_v14 main_v15
  fn_part1 (F := F) main_arg1 main_arg5 main_v13 main_v16
-- ==== Kernel.lean ====
abbrev S131072x300 : Shape := ⟨2, ![131072, 300]⟩
abbrev S131072x17 : Shape := ⟨2, ![131072, 17]⟩
abbrev S512x300 : Shape := ⟨2, ![512, 300]⟩
abbrev S512 : Shape := ⟨1, ![512]⟩
abbrev S2x512 : Shape := ⟨2, ![2, 512]⟩
abbrev S2 : Shape := ⟨1, ![2]⟩
abbrev S131072 : Shape := ⟨1, ![131072]⟩
abbrev S2048x300 : Shape := ⟨2, ![2048, 300]⟩
abbrev S2048x17 : Shape := ⟨2, ![2048, 17]⟩
abbrev S2048 : Shape := ⟨1, ![2048]⟩
abbrev S300x512 : Shape := ⟨2, ![300, 512]⟩
abbrev S2048x512 : Shape := ⟨2, ![2048, 512]⟩
abbrev S1x512 : Shape := ⟨2, ![1, 512]⟩
abbrev S512x2 : Shape := ⟨2, ![512, 2]⟩
abbrev S2048x2 : Shape := ⟨2, ![2048, 2]⟩
abbrev S1x2 : Shape := ⟨2, ![1, 2]⟩
abbrev S2048x1 : Shape := ⟨2, ![2048, 1]⟩

abbrev nBuf : Space → Nat
  | .hbm => 7
  | .vmem => 10
  | .smem => 0
  | _ => 0

abbrev bufTy : (tb : Table) → Fin (tcTables nBuf tb) → BufTy
  | .hbm, ⟨0, _⟩ => ⟨S131072x300, .f32⟩
  | .hbm, ⟨1, _⟩ => ⟨S131072x17, .i32⟩
  | .hbm, ⟨2, _⟩ => ⟨S512x300, .f32⟩
  | .hbm, ⟨3, _⟩ => ⟨S512, .f32⟩
  | .hbm, ⟨4, _⟩ => ⟨S2x512, .f32⟩
  | .hbm, ⟨5, _⟩ => ⟨S2, .f32⟩
  | .hbm, ⟨6, _⟩ => ⟨S131072, .f32⟩
  | .local _ .vmem, ⟨0, _⟩ => ⟨S2048x300, .f32⟩
  | .local _ .vmem, ⟨1, _⟩ => ⟨S2048x300, .f32⟩
  | .local _ .vmem, ⟨2, _⟩ => ⟨S2048x17, .i32⟩
  | .local _ .vmem, ⟨3, _⟩ => ⟨S2048x17, .i32⟩
  | .local _ .vmem, ⟨4, _⟩ => ⟨S512x300, .f32⟩
  | .local _ .vmem, ⟨5, _⟩ => ⟨S512, .f32⟩
  | .local _ .vmem, ⟨6, _⟩ => ⟨S2x512, .f32⟩
  | .local _ .vmem, ⟨7, _⟩ => ⟨S2, .f32⟩
  | .local _ .vmem, ⟨8, _⟩ => ⟨S2048, .f32⟩
  | .local _ .vmem, ⟨9, _⟩ => ⟨S2048, .f32⟩
  | _, _ => ⟨S131072x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S2048x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x17 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x300 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S2048x300_S2048x300_0_0 : ∀ a, (![0, 0] : Fin 2 → Nat) a + S2048x300.size a ≤ S2048x300.size a
  h_S2048x300 : 0 < S2048x300.numel
  inb_S512x300_S512x300_0_0 : ∀ a, (![0, 0] : Fin 2 → Nat) a + S512x300.size a ≤ S512x300.size a
  h_S512x300 : 0 < S512x300.numel
  bitsLt_bf16_f32 : FTy.bits .bf16 < FTy.bits .f32
  transposes_S512x300_p1_0_S300x512 : S512x300.Transposes [1, 0] S300x512
  inb_S512_S512_0 : ∀ a, (![0] : Fin 1 → Nat) a + S512.size a ≤ S512.size a
  h_S512 : 0 < S512.numel
  shapeCasts_S512_S1x512 : S512.ShapeCasts S1x512
  broadcasts_S1x512_S2048x512 : S1x512.Broadcasts S2048x512
  inb_S2x512_S2x512_0_0 : ∀ a, (![0, 0] : Fin 2 → Nat) a + S2x512.size a ≤ S2x512.size a
  h_S2x512 : 0 < S2x512.numel
  transposes_S2x512_p1_0_S512x2 : S2x512.Transposes [1, 0] S512x2
  inb_S2_S2_0 : ∀ a, (![0] : Fin 1 → Nat) a + S2.size a ≤ S2.size a
  h_S2 : 0 < S2.numel
  shapeCasts_S2_S1x2 : S2.ShapeCasts S1x2
  broadcasts_S1x2_S2048x2 : S1x2.Broadcasts S2048x2
  inb_S2048x17_S2048x17_0_0 : ∀ a, (![0, 0] : Fin 2 → Nat) a + S2048x17.size a ≤ S2048x17.size a
  h_S2048x17 : 0 < S2048x17.numel
  reduces_S2048x17_S2048 : S2048x17.Reduces [1] S2048
  shapeCasts_S2048_S2048x1 : S2048.ShapeCasts S2048x1
  slices_S2048x2_o0_0_S2048x1 : S2048x2.Slices ![0, 0] S2048x1
  slices_S2048x2_o0_1_S2048x1 : S2048x2.Slices ![0, 1] S2048x1
  shapeCasts_S2048x1_S2048 : S2048x1.ShapeCasts S2048
  inb_S2048_S2048_0 : ∀ a, (![0] : Fin 1 → Nat) a + S2048.size a ≤ S2048.size a
  h_S2048 : 0 < S2048.numel
  dot_S2048x300_S300x512_S2048x512_1_0_0_1_n_n_wf : DotDims.WF S2048x300 S300x512 S2048x512 [1] [0] [0] [1] [] []
  dot_S2048x512_S512x2_S2048x2_1_0_0_1_n_n_wf : DotDims.WF S2048x512 S512x2 S2048x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x300.size a ≤ S131072x300.size a
  hwx0_0 : ∀ i : grid0.Coords, EltTy.bits .f32 = 32 ∨ (Rect.block (s := S131072x300) S2048x300.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x17.size a ≤ S131072x17.size a
  hwx0_1 : ∀ i : grid0.Coords, EltTy.bits .i32 = 32 ∨ (Rect.block (s := S131072x17) S2048x17.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x300.size a ≤ S512x300.size a
  hwx0_2 : ∀ i : grid0.Coords, EltTy.bits .f32 = 32 ∨ (Rect.block (s := S512x300) S512x300.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x512.size a ≤ S2x512.size a
  hwx0_4 : ∀ i : grid0.Coords, EltTy.bits .f32 = 32 ∨ (Rect.block (s := S2x512) S2x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2.size a ≤ S2.size a
  hwx0_5 : ∀ i : grid0.Coords, EltTy.bits .f32 = 32 ∨ (Rect.block (s := S2) S2.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048.size a ≤ S131072.size a
  hwx0_6 : ∀ i : grid0.Coords, EltTy.bits .f32 = 32 ∨ (Rect.block (s := S131072) S2048.size (cc0_transform_6 i) (hinb0_6 i)).WholeWords (EltTy.packing .f32)

variable [Facts₀]

def dot_S2048x300_S300x512_S2048x512_1_0_0_1_n_n : DotDims S2048x300 S300x512 S2048x512 where
  lhsContracting := [1]
  rhsContracting := [0]
  lhsNonContracting := [0]
  rhsNonContracting := [1]
  lhsBatch := []
  rhsBatch := []
  wf := dot_S2048x300_S300x512_S2048x512_1_0_0_1_n_n_wf
def dot_S2048x512_S512x2_S2048x2_1_0_0_1_n_n : DotDims S2048x512 S512x2 S2048x2 where
  lhsContracting := [1]
  rhsContracting := [0]
  lhsNonContracting := [0]
  rhsNonContracting := [1]
  lhsBatch := []
  rhsBatch := []
  wf := dot_S2048x512_S512x2_S2048x2_1_0_0_1_n_n_wf

abbrev win0_0 : Pipeline.Window sig grid0 :=
  Pipeline.Window.ofSpec (Memref.whole main_arg0) S2048x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x17.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x300.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S131072x300 : Shape := ⟨2, ![131072, 300]⟩
abbrev S131072x17 : Shape := ⟨2, ![131072, 17]⟩
abbrev S512x300 : Shape := ⟨2, ![512, 300]⟩
abbrev S512 : Shape := ⟨1, ![512]⟩
abbrev S2x512 : Shape := ⟨2, ![2, 512]⟩
abbrev S2 : Shape := ⟨1, ![2]⟩
abbrev S131072x512 : Shape := ⟨2, ![131072, 512]⟩
abbrev S1x512 : Shape := ⟨2, ![1, 512]⟩
abbrev S_ : Shape := ⟨0, ![]⟩
abbrev S131072x2 : Shape := ⟨2, ![131072, 2]⟩
abbrev S1x2 : Shape := ⟨2, ![1, 2]⟩
abbrev S131072x17x1 : Shape := ⟨3, ![131072, 17, 1]⟩
abbrev S1 : Shape := ⟨1, ![1]⟩
abbrev S1x1x1 : Shape := ⟨3, ![1, 1, 1]⟩
abbrev S131072 : Shape := ⟨1, ![131072]⟩

abbrev nBuf : Space → Nat
  | .hbm => 47
  | .vmem => 0
  | .smem => 0
  | _ => 0

abbrev bufTy : (tb : Table) → Fin (tcTables nBuf tb) → BufTy
  | .hbm, ⟨0, _⟩ => ⟨S131072x300, .f32⟩
  | .hbm, ⟨1, _⟩ => ⟨S131072x17, .i32⟩
  | .hbm, ⟨2, _⟩ => ⟨S512x300, .f32⟩
  | .hbm, ⟨3, _⟩ => ⟨S512, .f32⟩
  | .hbm, ⟨4, _⟩ => ⟨S2x512, .f32⟩
  | .hbm, ⟨5, _⟩ => ⟨S2, .f32⟩
  | .hbm, ⟨6, _⟩ => ⟨S131072x512, .f32⟩
  | .hbm, ⟨7, _⟩ => ⟨S1x512, .f32⟩
  | .hbm, ⟨8, _⟩ => ⟨S131072x512, .f32⟩
  | .hbm, ⟨9, _⟩ => ⟨S131072x512, .f32⟩
  | .hbm, ⟨10, _⟩ => ⟨S131072x512, .f32⟩
  | .hbm, ⟨11, _⟩ => ⟨S131072x512, .f32⟩
  | .hbm, ⟨12, _⟩ => ⟨S_, .f32⟩
  | .hbm, ⟨13, _⟩ => ⟨S131072x512, .f32⟩
  | .hbm, ⟨14, _⟩ => ⟨S131072x512, .f32⟩
  | .hbm, ⟨15, _⟩ => ⟨S_, .f32⟩
  | .hbm, ⟨16, _⟩ => ⟨S131072x512, .f32⟩
  | .hbm, ⟨17, _⟩ => ⟨S131072x512, .f32⟩
  | .hbm, ⟨18, _⟩ => ⟨S131072x2, .f32⟩
  | .hbm, ⟨19, _⟩ => ⟨S1x2, .f32⟩
  | .hbm, ⟨20, _⟩ => ⟨S131072x2, .f32⟩
  | .hbm, ⟨21, _⟩ => ⟨S131072x2, .f32⟩
  | .hbm, ⟨22, _⟩ => ⟨S131072x2, .f32⟩
  | .hbm, ⟨23, _⟩ => ⟨S_, .i32⟩
  | .hbm, ⟨24, _⟩ => ⟨S131072x17, .i32⟩
  | .hbm, ⟨25, _⟩ => ⟨S131072x17, .i1⟩
  | .hbm, ⟨26, _⟩ => ⟨S_, .i32⟩
  | .hbm, ⟨27, _⟩ => ⟨S131072x17, .i32⟩
  | .hbm, ⟨28, _⟩ => ⟨S131072x17, .i32⟩
  | .hbm, ⟨29, _⟩ => ⟨S131072x17, .i32⟩
  | .hbm, ⟨30, _⟩ => ⟨S131072x17x1, .i32⟩
  | .hbm, ⟨31, _⟩ => ⟨S1, .i32⟩
  | .hbm, ⟨32, _⟩ => ⟨S_, .i32⟩
  | .hbm, ⟨33, _⟩ => ⟨S131072x17x1, .i32⟩
  | .hbm, ⟨34, _⟩ => ⟨S131072x17x1, .i1⟩
  | .hbm, ⟨35, _⟩ => ⟨S1x1x1, .i32⟩
  | .hbm, ⟨36, _⟩ => ⟨S131072x17x1, .i32⟩
  | .hbm, ⟨37, _⟩ => ⟨S131072x17x1, .i1⟩
  | .hbm, ⟨38, _⟩ => ⟨S131072x17x1, .i1⟩
  | .hbm, ⟨39, _⟩ => ⟨S_, .i1⟩
  | .hbm, ⟨40, _⟩ => ⟨S131072x17, .i1⟩
  | .hbm, ⟨41, _⟩ => ⟨S131072x17, .f32⟩
  | .hbm, ⟨42, _⟩ => ⟨S_, .f32⟩
  | .hbm, ⟨43, _⟩ => ⟨S131072x17, .f32⟩
  | .hbm, ⟨44, _⟩ => ⟨S131072x17, .f32⟩
  | .hbm, ⟨45, _⟩ => ⟨S_, .f32⟩
  | .hbm, ⟨46, _⟩ => ⟨S131072, .f32⟩
  | _, _ => ⟨S131072x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_cst : Ref sig .tc := ⟨.hbm, 42, rfl⟩
abbrev main_call0_v14 : Ref sig .tc := ⟨.hbm, 43, rfl⟩
abbrev main_v15 : Ref sig .tc := ⟨.hbm, 44, rfl⟩
abbrev main_cst_1 : Ref sig .tc := ⟨.hbm, 45, rfl⟩
abbrev main_v16 : Ref sig .tc := ⟨.hbm, 46, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  bcast_S_S131072x512 : S_.BroadcastsInDim S131072x512 (![] : Fin 0 → Fin S131072x512.rank)
  bcast_S2_S1x2_1 : S2.BroadcastsInDim S1x2 (![1] : Fin 1 → Fin S1x2.rank)
  bcast_S1x2_S131072x2_0_1 : S1x2.BroadcastsInDim S131072x2 (![0, 1] : Fin 2 → Fin S131072x2.rank)
  bcast_S_S131072x17 : S_.BroadcastsInDim S131072x17 (![] : Fin 0 → Fin S131072x17.rank)
  shapeCasts_S131072x17_S131072x17x1 : S131072x17.ShapeCasts S131072x17x1
  bcast_S_S131072x17x1 : S_.BroadcastsInDim S131072x17x1 (![] : Fin 0 → Fin S131072x17x1.rank)
  bcast_S1_S1x1x1_2 : S1.BroadcastsInDim S1x1x1 (![2] : Fin 1 → Fin S1x1x1.rank)
  bcast_S1x1x1_S131072x17x1_0_1_2 : S1x1x1.BroadcastsInDim S131072x17x1 (![0, 1, 2] : Fin 3 → Fin S131072x17x1.rank)
  reducesTo_S131072x17x1_S131072x17_d2 : S131072x17x1.ReducesTo [2] S131072x17
  h_S_ : 0 < S_.numel
  reducesTo_S131072x17_S131072_d1 : S131072x17.ReducesTo [1] S131072
  dot_S131072x300_S512x300_S131072x512_1_1_0_0_n_n_wf : DotDims.WF S131072x300 S512x300 S131072x512 [1] [1] [0] [0] [] []
  dot_S131072x512_S2x512_S131072x2_1_1_0_0_n_n_wf : DotDims.WF S131072x512 S2x512 S131072x2 [1] [1] [0] [0] [] []
  gather_S131072x2_S131072x17x1_S131072x17_n_1_0_0_1_2_11_wf : GatherDims.WF S131072x2 S131072x17x1 S131072x17 [] [1] [0] [1] [0] 2 ![1, 1]

variable [Facts₀]

def dot_S131072x300_S512x300_S131072x512_1_1_0_0_n_n : DotDims S131072x300 S512x300 S131072x512 where
  lhsContracting := [1]
  rhsContracting := [1]
  lhsNonContracting := [0]
  rhsNonContracting := [0]
  lhsBatch := []
  rhsBatch := []
  wf := dot_S131072x300_S512x300_S131072x512_1_1_0_0_n_n_wf
def dot_S131072x512_S2x512_S131072x2_1_1_0_0_n_n : DotDims S131072x512 S2x512 S131072x2 where
  lhsContracting := [1]
  rhsContracting := [1]
  lhsNonContracting := [0]
  rhsNonContracting := [0]
  lhsBatch := []
  rhsBatch := []
  wf := dot_S131072x512_S2x512_S131072x2_1_1_0_0_n_n_wf
def gather_S131072x2_S131072x17x1_S131072x17_n_1_0_0_1_2_11 : GatherDims S131072x2 S131072x17x1 S131072x17 where
  offsetDims := []
  collapsedSliceDims := [1]
  operandBatchingDims := [0]
  startIndicesBatchingDims := [0]
  startIndexMap := [1]
  indexVectorDim := 2
  sliceSizes := ![1, 1]
  wf := gather_S131072x2_S131072x17x1_S131072x17_n_1_0_0_1_2_11_wf

class Facts : Prop extends Facts₀ where

variable [Facts]
-- ==== Proof.Spec.lean ====
/-
  What both programs compute, as one function of the argument arrays, at the exact (extended-real) reading.

  For word r (a row of the 131072 × 300 array x) the hidden layer is  hid(r, h) = σ(∑ₖ x[r,k] · W1[h,k] + b1[h]),
  σ(z) = 1 / (1 + e^(−z)); the two output logits are  out(r, j) = ∑ₕ hid(r, h) · W2[j,h] + b2[j]  for the sides j = 0, 1,
  and  ℓ(r, j) = log out(r, j).  The path of word r visits 17 nodes, taking side sides[r, d] at node d; with
  n₁(r) = ∑_d sides[r, d]  (the sides read as numbers) the result is
        (17 − n₁(r)) · ℓ(r, 0) + n₁(r) · ℓ(r, 1).
  When every side is 0 or 1 this is  ∑_d ℓ(r, sides[r, d])  (Law.lean).
-/
import Idealize.ShloMosaic.PureOps.Ideal
import Idealize.ShloMosaic.Lib.ValueIdx

noncomputable section

namespace Cert.PathLogProb

open Idealize.ShloMosaic Idealize.ShloMosaic.ValueIdx

abbrev SWords : Shape := ⟨2, ![131072, 300]⟩
abbrev SSides : Shape := ⟨2, ![131072, 17]⟩
abbrev SW1 : Shape := ⟨2, ![512, 300]⟩
abbrev SB1 : Shape := ⟨1, ![512]⟩
abbrev SW2 : Shape := ⟨2, ![2, 512]⟩
abbrev SB2 : Shape := ⟨1, ![2]⟩
abbrev SOut : Shape := ⟨1, ![131072]⟩

variable (x : FVec Ideal SWords .f32) (sides : IVec SSides 32) (w1 : FVec Ideal SW1 .f32) (b1 : FVec Ideal SB1 .f32)
  (w2 : FVec Ideal SW2 .f32) (b2 : FVec Ideal SB2 .f32)

/-- Hidden unit h of word r: the logistic of the affine map. -/
def hidden (r : Fin 131072) (h : Fin 512) : EReal :=
  Ideal.logistic ((∑ k : Fin 300, x (ix2 r k) * w1 (ix2 h k)) + b1 (ix1 h))

/-- The log of word r's output for side j. -/
def sideLog (r : Fin 131072) (j : Fin 2) : EReal :=
  Ideal.log ((∑ h : Fin 512, hidden x w1 b1 r h * w2 (ix2 j h)) + b2 (ix1 j))

/-- n₁(r): the sides of word r's path, read as signed integers, summed. -/
def sideCount (r : Fin 131072) : EReal :=
  ∑ d : Fin 17, (((sides (ix2 r d)).toInt : ℝ) : EReal)

/-- The result for word r. -/
def wordValue (r : Fin 131072) : EReal :=
  (((17 : ℝ) : EReal) - sideCount sides r) * sideLog x w1 b1 w2 b2 r 0 + sideCount sides r * sideLog x w1 b1 w2 b2 r 1

/-- The result array. -/
def pathLogProb : FVec Ideal SOut .f32 := fun i => wordValue x sides w1 b1 w2 b2 (i 0)

theorem pathLogProb_apply (r : Fin 131072) :
    pathLogProb x sides w1 b1 w2 b2 (ix1 r) = wordValue x sides w1 b1 w2 b2 r := rfl

/-- The f32 word of 17.0 denotes the real 17. -/
theorem ofBits_17 : Ideal.ofBits .f32 0x41880000#32 = ((17 : ℝ) : EReal) := by
  simp [Ideal.ofBits, Ideal.ieee, -EReal.coe_mul]; norm_num

end Cert.PathLogProb

end
-- ==== Proof.BlockMatmul.lean ====
/-
  The kernel's two matrix products, each into a zero accumulator, read at one entry: a plain finite sum over the
  contracted axis. The first is (a block of 2048 words) × W1ᵀ, contracting the 300 input features; the second is
  (the block's hidden layer) × W2ᵀ, contracting the 512 hidden units.
-/
import proofs.«400814_j38165079392655_1_alg».proof.Proof.Gen.KernelIdeal
import Idealize.ShloMosaic.Lib.ValueIdx
import Idealize.ShloMosaic.PureOps.Ideal.Laws

noncomputable section

namespace Cert.PathLogProb.Block

open Idealize.ShloMosaic Idealize.ShloMosaic.ValueIdx Cert.KernelIdeal

/-! ### Words × W1ᵀ: [2048, 300] · [300, 512] -/

theorem lhsA_0 (i : S2048x512.Idx) (q : dot_S2048x300_S300x512_S2048x512_1_0_0_1_n_n.contr.Idx) :
    (dot_S2048x300_S300x512_S2048x512_1_0_0_1_n_n.lhsIdx i q 0).val = (i 0).val := by
  unfold DotDims.lhsIdx
  rw [dif_neg (show ¬(0 : Fin S2048x300.rank) ∈ dot_S2048x300_S300x512_S2048x512_1_0_0_1_n_n.lhsBatch by decide), dif_pos (show (0 : Fin S2048x300.rank) ∈ dot_S2048x300_S300x512_S2048x512_1_0_0_1_n_n.lhsNonContracting by decide)]
  rfl
theorem lhsA_1 (i : S2048x512.Idx) (q : dot_S2048x300_S300x512_S2048x512_1_0_0_1_n_n.contr.Idx) :
    (dot_S2048x300_S300x512_S2048x512_1_0_0_1_n_n.lhsIdx i q 1).val = (q ⟨0, by decide⟩).val :=
  dot_S2048x300_S300x512_S2048x512_1_0_0_1_n_n.lhsIdx_val_of_single rfl i q
theorem rhsA_0 (i : S2048x512.Idx) (q : dot_S2048x300_S300x512_S2048x512_1_0_0_1_n_n.contr.Idx) :
    (dot_S2048x300_S300x512_S2048x512_1_0_0_1_n_n.rhsIdx i q 0).val = (q ⟨0, by decide⟩).val :=
  dot_S2048x300_S300x512_S2048x512_1_0_0_1_n_n.rhsIdx_val_of_single rfl i q
theorem rhsA_1 (i : S2048x512.Idx) (q : dot_S2048x300_S300x512_S2048x512_1_0_0_1_n_n.contr.Idx) :
    (dot_S2048x300_S300x512_S2048x512_1_0_0_1_n_n.rhsIdx i q 1).val = (i 1).val := by
  unfold DotDims.rhsIdx
  rw [dif_neg (show ¬(1 : Fin S300x512.rank) ∈ dot_S2048x300_S300x512_S2048x512_1_0_0_1_n_n.rhsBatch by decide), dif_pos (show (1 : Fin S300x512.rank) ∈ dot_S2048x300_S300x512_S2048x512_1_0_0_1_n_n.rhsNonContracting by decide)]
  rfl

/-- Entry (p, c) of the product into a zero accumulator is the sum over the 300 contracted positions k of
    left[p, k] · right[k, c]. -/
theorem matmulA_apply (l : FVec Ideal S2048x300 .bf16) (r : FVec Ideal S300x512 .bf16) (p : Fin 2048) (c : Fin 512) :
    matmul dot_S2048x300_S300x512_S2048x512_1_0_0_1_n_n none l r (constant S2048x512 .f32 0x00000000#32) (ix2 p c)
      = ∑ k : Fin 300, l (ix2 p k) * r (ix2 k c) := by
  show FloatOps.matmul dot_S2048x300_S300x512_S2048x512_1_0_0_1_n_n none l r (constant S2048x512 .f32 0x00000000#32) (ix2 p c) = _
  rw [Ideal.matmul_constant_zero_apply, ← Equiv.sum_comp (contrEquiv1 dot_S2048x300_S300x512_S2048x512_1_0_0_1_n_n 300 rfl rfl).symm]
  refine Finset.sum_congr rfl fun k _ => ?_
  have hk := contrEquiv1_symm_val dot_S2048x300_S300x512_S2048x512_1_0_0_1_n_n 300 rfl rfl k
  have el : dot_S2048x300_S300x512_S2048x512_1_0_0_1_n_n.lhsIdx (ix2 p c) ((contrEquiv1 dot_S2048x300_S300x512_S2048x512_1_0_0_1_n_n 300 rfl rfl).symm k) = ix2 p k := funext fun a => Fin.ext (by
    match a with
    | ⟨0, _⟩ => exact lhsA_0 _ _
    | ⟨1, _⟩ => exact (lhsA_1 _ _).trans hk)
  have er : dot_S2048x300_S300x512_S2048x512_1_0_0_1_n_n.rhsIdx (ix2 p c) ((contrEquiv1 dot_S2048x300_S300x512_S2048x512_1_0_0_1_n_n 300 rfl rfl).symm k) = ix2 k c := funext fun a => Fin.ext (by
    match a with
    | ⟨0, _⟩ => exact (rhsA_0 _ _).trans hk
    | ⟨1, _⟩ => exact rhsA_1 _ _)
  rw [el, er]

/-! ### Hidden × W2ᵀ: [2048, 512] · [512, 2] -/

theorem lhsB_0 (i : S2048x2.Idx) (q : dot_S2048x512_S512x2_S2048x2_1_0_0_1_n_n.contr.Idx) :
    (dot_S2048x512_S512x2_S2048x2_1_0_0_1_n_n.lhsIdx i q 0).val = (i 0).val := by
  unfold DotDims.lhsIdx
  rw [dif_neg (show ¬(0 : Fin S2048x512.rank) ∈ dot_S2048x512_S512x2_S2048x2_1_0_0_1_n_n.lhsBatch by decide), dif_pos (show (0 : Fin S2048x512.rank) ∈ dot_S2048x512_S512x2_S2048x2_1_0_0_1_n_n.lhsNonContracting by decide)]
  rfl
theorem lhsB_1 (i : S2048x2.Idx) (q : dot_S2048x512_S512x2_S2048x2_1_0_0_1_n_n.contr.Idx) :
    (dot_S2048x512_S512x2_S2048x2_1_0_0_1_n_n.lhsIdx i q 1).val = (q ⟨0, by decide⟩).val :=
  dot_S2048x512_S512x2_S2048x2_1_0_0_1_n_n.lhsIdx_val_of_single rfl i q
theorem rhsB_0 (i : S2048x2.Idx) (q : dot_S2048x512_S512x2_S2048x2_1_0_0_1_n_n.contr.Idx) :
    (dot_S2048x512_S512x2_S2048x2_1_0_0_1_n_n.rhsIdx i q 0).val = (q ⟨0, by decide⟩).val :=
  dot_S2048x512_S512x2_S2048x2_1_0_0_1_n_n.rhsIdx_val_of_single rfl i q
theorem rhsB_1 (i : S2048x2.Idx) (q : dot_S2048x512_S512x2_S2048x2_1_0_0_1_n_n.contr.Idx) :
    (dot_S2048x512_S512x2_S2048x2_1_0_0_1_n_n.rhsIdx i q 1).val = (i 1).val := by
  unfold DotDims.rhsIdx
  rw [dif_neg (show ¬(1 : Fin S512x2.rank) ∈ dot_S2048x512_S512x2_S2048x2_1_0_0_1_n_n.rhsBatch by decide), dif_pos (show (1 : Fin S512x2.rank) ∈ dot_S2048x512_S512x2_S2048x2_1_0_0_1_n_n.rhsNonContracting by decide)]
  rfl

/-- Entry (p, c) of the product into a zero accumulator is the sum over the 512 contracted positions k of
    left[p, k] · right[k, c]. -/
theorem matmulB_apply (l : FVec Ideal S2048x512 .bf16) (r : FVec Ideal S512x2 .bf16) (p : Fin 2048) (c : Fin 2) :
    matmul dot_S2048x512_S512x2_S2048x2_1_0_0_1_n_n none l r (constant S2048x2 .f32 0x00000000#32) (ix2 p c)
      = ∑ k : Fin 512, l (ix2 p k) * r (ix2 k c) := by
  show FloatOps.matmul dot_S2048x512_S512x2_S2048x2_1_0_0_1_n_n none l r (constant S2048x2 .f32 0x00000000#32) (ix2 p c) = _
  rw [Ideal.matmul_constant_zero_apply, ← Equiv.sum_comp (contrEquiv1 dot_S2048x512_S512x2_S2048x2_1_0_0_1_n_n 512 rfl rfl).symm]
  refine Finset.sum_congr rfl fun k _ => ?_
  have hk := contrEquiv1_symm_val dot_S2048x512_S512x2_S2048x2_1_0_0_1_n_n 512 rfl rfl k
  have el : dot_S2048x512_S512x2_S2048x2_1_0_0_1_n_n.lhsIdx (ix2 p c) ((contrEquiv1 dot_S2048x512_S512x2_S2048x2_1_0_0_1_n_n 512 rfl rfl).symm k) = ix2 p k := funext fun a => Fin.ext (by
    match a with
    | ⟨0, _⟩ => exact lhsB_0 _ _
    | ⟨1, _⟩ => exact (lhsB_1 _ _).trans hk)
  have er : dot_S2048x512_S512x2_S2048x2_1_0_0_1_n_n.rhsIdx (ix2 p c) ((contrEquiv1 dot_S2048x512_S512x2_S2048x2_1_0_0_1_n_n 512 rfl rfl).symm k) = ix2 k c := funext fun a => Fin.ext (by
    match a with
    | ⟨0, _⟩ => exact (rhsB_0 _ _).trans hk
    | ⟨1, _⟩ => exact rhsB_1 _ _)
  rw [el, er]

end Cert.PathLogProb.Block

end
-- ==== Proof.BlockValue.lean ====
/-
  What the kernel's body stores for one word of a block, as a number.  The body sees a block of 2048 words (rows
  q of the block), all of W1, b1, W2, b2, and the block's 2048 × 17 sides.  Row q of what it stores is
      (17 − n₁) · ℓ₀ + n₁ · ℓ₁,
  n₁ the sum over the 17 nodes of the row's sides read as numbers, ℓⱼ = log(∑ₕ σ(∑ₖ x[q,k]·W1[h,k] + b1[h]) · W2[j,h] + b2[j]).
  The changes of float format are the identity on exact values; the two transposes only say which operand index a
  product reads; the casts between a vector and a column, the row broadcasts and the two column slices only move an
  index.  When row q of the block is row r of the whole array, this is the specification's value for word r.
-/
import proofs.«400814_j38165079392655_1_alg».proof.Proof.Gen.KernelIdeal.Skeleton
import proofs.«400814_j38165079392655_1_alg».proof.Proof.Spec
import proofs.«400814_j38165079392655_1_alg».proof.Proof.BlockMatmul
import Idealize.ShloMosaic.Lib.ValueLayout
import Idealize.ShloMosaic.Lib.Pipeline.Value

noncomputable section

namespace Cert.PathLogProb.Block

open Idealize.ShloMosaic Idealize.ShloMosaic.ValueIdx Cert.KernelIdeal Cert.KernelIdeal.Gen

/-! ## A vector as a column, and back -/

/-- A vector cast to a column reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column cast to a vector reads, at i, the column at (i, 0). -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-! ## The pieces of the body, each at one index -/

/-- The block's hidden layer at (q, h). -/
theorem hidden_apply (xb : FVec Ideal S2048x300 .f32) (w1 : FVec Ideal S512x300 .f32) (b1 : FVec Ideal S512 .f32)
    (q : Fin 2048) (h : Fin 512) :
    logistic (addf (matmul dot_S2048x300_S300x512_S2048x512_1_0_0_1_n_n none (truncf .bf16 xb bitsLt_bf16_f32)
          (transpose S300x512 [1, 0] (truncf .bf16 w1 bitsLt_bf16_f32) transposes_S512x300_p1_0_S300x512)
          (constant S2048x512 .f32 0x00000000#32))
        (broadcastTo S2048x512 (shapeCast S1x512 b1 shapeCasts_S512_S1x512) broadcasts_S1x512_S2048x512)) (ix2 q h)
      = Ideal.logistic ((∑ k : Fin 300, xb (ix2 q k) * w1 (ix2 h k)) + b1 (ix1 h)) := by
  show Ideal.logistic (_ + _) = _
  rw [matmulA_apply, broadcastTo_1b_ab_apply, shapeCast_a_1a_apply]
  refine congrArg (fun s => Ideal.logistic (s + b1 (ix1 h))) (Finset.sum_congr rfl fun k _ => ?_)
  rw [truncf_apply, transpose_ix2_apply, truncf_apply]

/-- The block's log-outputs at (q, j), over any hidden layer `hid`. -/
theorem log_apply (hid : FVec Ideal S2048x512 .f32) (w2 : FVec Ideal S2x512 .f32) (b2 : FVec Ideal S2 .f32)
    (q : Fin 2048) (j : Fin 2) :
    log (addf (matmul dot_S2048x512_S512x2_S2048x2_1_0_0_1_n_n none (truncf .bf16 hid bitsLt_bf16_f32)
          (transpose S512x2 [1, 0] (truncf .bf16 w2 bitsLt_bf16_f32) transposes_S2x512_p1_0_S512x2)
          (constant S2048x2 .f32 0x00000000#32))
        (broadcastTo S2048x2 (shapeCast S1x2 b2 shapeCasts_S2_S1x2) broadcasts_S1x2_S2048x2)) (ix2 q j)
      = Ideal.log ((∑ h : Fin 512, hid (ix2 q h) * w2 (ix2 j h)) + b2 (ix1 j)) := by
  show Ideal.log (_ + _) = _
  rw [matmulB_apply, broadcastTo_1b_ab_apply, shapeCast_a_1a_apply]
  refine congrArg (fun s => Ideal.log (s + b2 (ix1 j))) (Finset.sum_congr rfl fun h _ => ?_)
  rw [truncf_apply, transpose_ix2_apply, truncf_apply]

/-- The row's count: the lane sum of the sides converted to floats is the sum of the sides as numbers. -/
theorem count_apply (sb : IVec S2048x17 32) (q : Fin 2048) :
    multiReduction .add [1] S2048 (sitofp (F := Ideal) .f32 sb) 0x00000000#32 reduces_S2048x17_S2048 (.inl rfl) rfl (ix1 q)
      = ∑ d : Fin 17, (((sb (ix2 q d)).toInt : ℝ) : EReal) := by
  refine (Ideal.multiReduction_add_single (sitofp (F := Ideal) .f32 sb) 0x00000000#32 reduces_S2048x17_S2048 (.inl rfl) rfl (ix1 q)).trans ?_
  refine Finset.sum_congr rfl fun d _ => ?_
  have e : reduces_S2048x17_S2048.lift (ix1 q) d = ix2 q d := funext fun a => Fin.ext (by
    match a with
    | ⟨0, _⟩ => rfl
    | ⟨1, _⟩ => rfl)
  exact congrArg (fun i => (((sb i).toInt : ℝ) : EReal)) e

/-! ## The stored row -/

/-- Row q of what the body stores, when row q of the block of words is row r of the whole array and row q of the
    block of sides is row r of the whole sides array: the specification's value for word r. -/
theorem payload_apply (X : FVec Ideal SWords .f32) (Sd : IVec SSides 32)
    (xb : Vec Ideal S2048x300 .f32) (w1 : Vec Ideal S512x300 .f32) (b1 : Vec Ideal S512 .f32)
    (w2 : Vec Ideal S2x512 .f32) (b2 : Vec Ideal S2 .f32) (sb : Vec Ideal S2048x17 .i32)
    (r : Fin 131072) (q : Fin 2048)
    (hx : ∀ k : Fin 300, xb (ix2 q k) = X (ix2 r k)) (hs : ∀ d : Fin 17, sb (ix2 q d) = Sd (ix2 r d)) :
    k0_pay1 (F := Ideal) xb w1 b1 w2 b2 sb (ix1 q) = wordValue X Sd w1 b1 w2 b2 r := by
  unfold k0_pay1
  refine (shapeCast_a1_a_apply _ shapeCasts_S2048x1_S2048 q).trans ?_
  rw [addf_apply, mulf_apply, mulf_apply, subf_apply, broadcast_apply, shapeCast_a_a1_apply, count_apply,
    slice2_axis1_eq, slice2_axis1_eq, log_apply, log_apply]
  simp only [hidden_apply xb w1 b1, hx, hs]
  unfold wordValue sideLog hidden sideCount
  rw [← ofBits_17]
  rfl

end Cert.PathLogProb.Block

end
-- ==== Proof.KernelValue.lean ====
/-
  From what each grid point writes back to the whole output array.  The grid has 64 points; point t reads rows
  2048·t … 2048·t + 2047 of the words and of the sides, all of W1, b1, W2, b2, and writes rows 2048·t … 2048·t + 2047
  of the output.  Row q of the block is row 2048·t + q of the arrays, so by the stored-row lemma point t writes block t
  of the specification; the 64 blocks tile the 131072 rows, so the array ends holding the specification.
-/
import proofs.«400814_j38165079392655_1_alg».proof.Proof.Gen.KernelIdeal.Value
import proofs.«400814_j38165079392655_1_alg».proof.Proof.BlockValue

set_option maxRecDepth 16384

noncomputable section

namespace Cert.PathLogProb.Kernel

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The specification at the arrays core c was launched with. -/
abbrev target (c : Dev nD) : S131072.Idx → Elt Ideal .f32 :=
  pathLogProb (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem origin1 : (![0] : Fin 1 → Nat) = fun _ => 0 := funext fun a => by fin_cases a; rfl
theorem origin2 : (![0, 0] : Fin 2 → Nat) = fun _ => 0 := funext fun a => by fin_cases a <;> rfl

/-- The printed index maps over the 64 grid points: the words' and the sides' row-block index is the output's, every
    other block index is 0, and the output's block index is at most 63. -/
theorem index_facts : ∀ t : Fin cfg0.N,
    win0_0.index t (0 : Fin 2) = win0_6.index t (0 : Fin 1) ∧ win0_0.index t (1 : Fin 2) = 0
    ∧ win0_1.index t (0 : Fin 2) = win0_6.index t (0 : Fin 1) ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 1) ≤ 63 :=
  (by decide +kernel : ∀ t : Fin grid0.N, _)

/-- Every block of the output is some point's. -/
theorem index_onto : ∀ q0 : Fin 64, ∃ t : Fin cfg0.N, win0_6.index t = ![q0.val] :=
  (by decide +kernel : ∀ q0 : Fin 64, ∃ t : Fin grid0.N, win0_6.index t = ![q0.val])

/-! ## The input blocks at a point -/

/-- W1's window is the whole array at every point. -/
theorem w1_whole (c : Dev nD) (t : Fin cfg0.N) :
    (iblk m c 2 t : Vec Ideal S512x300 .f32) = m ((c : Thread nD τ).loc main_arg2) := by
  obtain ⟨-, -, -, -, e20, e21, e3, e40, e41, e5, -⟩ := index_facts t
  funext y
  show V m c main_arg2 (((cfg0.win 2).blk t).view.emb y) = V m c main_arg2 y
  refine congrArg (V m c main_arg2) (funext fun a => Fin.ext ?_)
  match a with
  | ⟨0, _⟩ => show win0_2.index t (0 : Fin 2) * 512 + 1 * (y 0).val = (y 0).val; omega
  | ⟨1, _⟩ => show win0_2.index t (1 : Fin 2) * 300 + 1 * (y 1).val = (y 1).val; omega

/-- b1's window is the whole array at every point. -/
theorem b1_whole (c : Dev nD) (t : Fin cfg0.N) :
    (iblk m c 3 t : Vec Ideal S512 .f32) = m ((c : Thread nD τ).loc main_arg3) := by
  obtain ⟨-, -, -, -, e20, e21, e3, e40, e41, e5, -⟩ := index_facts t
  funext y
  show V m c main_arg3 (((cfg0.win 3).blk t).view.emb y) = V m c main_arg3 y
  refine congrArg (V m c main_arg3) (funext fun a => Fin.ext ?_)
  match a with
  | ⟨0, _⟩ => show win0_3.index t (0 : Fin 1) * 512 + 1 * (y 0).val = (y 0).val; omega

/-- W2's window is the whole array at every point. -/
theorem w2_whole (c : Dev nD) (t : Fin cfg0.N) :
    (iblk m c 4 t : Vec Ideal S2x512 .f32) = m ((c : Thread nD τ).loc main_arg4) := by
  obtain ⟨-, -, -, -, e20, e21, e3, e40, e41, e5, -⟩ := index_facts t
  funext y
  show V m c main_arg4 (((cfg0.win 4).blk t).view.emb y) = V m c main_arg4 y
  refine congrArg (V m c main_arg4) (funext fun a => Fin.ext ?_)
  match a with
  | ⟨0, _⟩ => show win0_4.index t (0 : Fin 2) * 2 + 1 * (y 0).val = (y 0).val; omega
  | ⟨1, _⟩ => show win0_4.index t (1 : Fin 2) * 512 + 1 * (y 1).val = (y 1).val; omega

/-- b2's window is the whole array at every point. -/
theorem b2_whole (c : Dev nD) (t : Fin cfg0.N) :
    (iblk m c 5 t : Vec Ideal S2 .f32) = m ((c : Thread nD τ).loc main_arg5) := by
  obtain ⟨-, -, -, -, e20, e21, e3, e40, e41, e5, -⟩ := index_facts t
  funext y
  show V m c main_arg5 (((cfg0.win 5).blk t).view.emb y) = V m c main_arg5 y
  refine congrArg (V m c main_arg5) (funext fun a => Fin.ext ?_)
  match a with
  | ⟨0, _⟩ => show win0_5.index t (0 : Fin 1) * 2 + 1 * (y 0).val = (y 0).val; omega

/-- The row of the arrays that row q of point t's blocks is. -/
abbrev rowOf (t : Fin cfg0.N) (q : Fin 2048) : Fin 131072 :=
  ⟨win0_6.index t (0 : Fin 1) * 2048 + q.val, by
    have h := (index_facts t).2.2.2.2.2.2.2.2.2.2
    have hq := q.isLt
    omega⟩

/-- Row q of point t's block of words is row 2048·t + q of the words. -/
theorem words_row (c : Dev nD) (t : Fin cfg0.N) (q : Fin 2048) (k : Fin 300) :
    (iblk m c 0 t : Vec Ideal S2048x300 .f32) (ix2 q k) = m ((c : Thread nD τ).loc main_arg0) (ix2 (rowOf t q) k) := by
  obtain ⟨e00, e01, -⟩ := index_facts t
  show V m c main_arg0 (((cfg0.win 0).blk t).view.emb (ix2 q k)) = V m c main_arg0 (ix2 (rowOf t q) k)
  refine congrArg (V m c main_arg0) (funext fun a => Fin.ext ?_)
  match a with
  | ⟨0, _⟩ => show win0_0.index t (0 : Fin 2) * 2048 + 1 * q.val = win0_6.index t (0 : Fin 1) * 2048 + q.val; omega
  | ⟨1, _⟩ => show win0_0.index t (1 : Fin 2) * 300 + 1 * k.val = k.val; omega

/-- Row q of point t's block of sides is row 2048·t + q of the sides. -/
theorem sides_row (c : Dev nD) (t : Fin cfg0.N) (q : Fin 2048) (d : Fin 17) :
    (iblk m c 1 t : Vec Ideal S2048x17 .i32) (ix2 q d) = m ((c : Thread nD τ).loc main_arg1) (ix2 (rowOf t q) d) := by
  obtain ⟨-, -, e10, e11, -⟩ := index_facts t
  show V m c main_arg1 (((cfg0.win 1).blk t).view.emb (ix2 q d)) = V m c main_arg1 (ix2 (rowOf t q) d)
  refine congrArg (V m c main_arg1) (funext fun a => Fin.ext ?_)
  match a with
  | ⟨0, _⟩ => show win0_1.index t (0 : Fin 2) * 2048 + 1 * q.val = win0_6.index t (0 : Fin 1) * 2048 + q.val; omega
  | ⟨1, _⟩ => show win0_1.index t (1 : Fin 2) * 17 + 1 * d.val = d.val; omega

/-- Row q of what point t's body stores is the specification's value for word 2048·t + q. -/
theorem stored_row (c : Dev nD) (t : Fin cfg0.N) (q : Fin 2048) :
    k0_pay1 (F := Ideal) (iblk m c 0 t) (iblk m c 2 t) (iblk m c 3 t) (iblk m c 4 t) (iblk m c 5 t) (iblk m c 1 t) (ix1 q)
      = target m c (ix1 (rowOf t q)) := by
  rw [w1_whole m c t, b1_whole m c t, w2_whole m c t, b2_whole m c t]
  exact Block.payload_apply _ _ _ _ _ _ _ _ (rowOf t q) q (words_row m c t q) (sides_row m c t q)

/-! ## The output array -/

/-- WHAT POINT t WRITES BACK is block t of the specification. -/
theorem flushed_eq (c : Dev nD) (t : Fin cfg0.N) :
    (dats m 0 c).flushed 6 t = ((cfg0.win 6).blk t).view.read (Elt Ideal) (target m c) := by
  rw [Cert.KernelIdeal.Value.flushed6]
  unfold out0_6
  rw [View.canon_unit_zero origin1]
  simp only [View.ld_unit_zero (S := S2048x300) origin2, View.ld_unit_zero (S := S2048x17) origin2,
    View.ld_unit_zero (S := S512x300) origin2, View.ld_unit_zero (S := S512) origin1,
    View.ld_unit_zero (S := S2x512) origin2, View.ld_unit_zero (S := S2) origin1]
  funext j
  have hq : (j 0).val < 2048 := (j 0).isLt
  have ej : j = ix1 (⟨(j 0).val, hq⟩ : Fin 2048) := funext fun a => Fin.ext (by
    match a with
    | ⟨0, _⟩ => rfl)
  show k0_pay1 (F := Ideal) (iblk m c 0 t) (iblk m c 2 t) (iblk m c 3 t) (iblk m c 4 t) (iblk m c 5 t) (iblk m c 1 t) j
      = target m c (((cfg0.win 6).blk t).view.emb j)
  rw [ej, stored_row m c t ⟨(j 0).val, hq⟩]
  refine congrArg (target m c) (funext fun a => Fin.ext ?_)
  match a with
  | ⟨0, _⟩ => show win0_6.index t (0 : Fin 1) * 2048 + (j 0).val = win0_6.index t (0 : Fin 1) * 2048 + 1 * (j 0).val; omega

/-- An index of the output array is in point t's block iff it is one of the block's 2048 rows. -/
theorem mem_block (t : Fin cfg0.N) (i : S131072.Idx) :
    i ∈ ((cfg0.win 6).blk t).view.set ↔ ∀ a : Fin 1, win0_6.index t a * S2048.size a ≤ (i a).val ∧ (i a).val < win0_6.index t a * S2048.size a + S2048.size a := by
  show i ∈ ((View.whole main_v0).slice (win0_6.rect t)).set ↔ _
  rw [View.set_slice_whole, Rect.mem_set_unit]
  exact Iff.rfl

/-- The 64 blocks tile the 131072 rows: row i is in block i / 2048. -/
theorem covered (i : S131072.Idx) :
    ∃ t : Fin cfg0.N, (cfg0.win 6).flush t = true ∧ i ∈ ((cfg0.win 6).blk t).view.set := by
  have hi : (i 0).val < 131072 := (i 0).isLt
  obtain ⟨t, ht⟩ := index_onto ⟨(i 0).val / 2048, by omega⟩
  have q0 : win0_6.index t (0 : Fin 1) = (i 0).val / 2048 := congrFun ht 0
  refine ⟨t, flush0_6 t, ?_⟩
  rw [mem_block]
  intro a
  match a with
  | ⟨0, _⟩ => show win0_6.index t (0 : Fin 1) * 2048 ≤ (i 0).val ∧ (i 0).val < win0_6.index t (0 : Fin 1) * 2048 + 2048; omega

/-- THE ARRAY after the run is the specification. -/
theorem final (c : Dev nD) : (dats m 0 c).arrAt 6 cfg0.N = target m c :=
  (dats m 0 c).arrAt_eq_of_cover 6 (target m c) (fun t _ => flushed_eq m c t) covered

/-! ## The run, read -/

/-- Every weakly fair execution of the kernel's program ends with the output array at the specification of the
    arguments as launched, the arguments unchanged. -/
theorem run : θ_run defs (onTc (τ := τ) (main (F := Ideal))) ⟨m, fun _ => 0, ρ⟩ fun r => ∀ c : Dev nD,
      r.2.mem ((c : Thread nD τ).loc main_v0) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.PathLogProb.Kernel

end
-- ==== Proof.RefOps.lean ====
/-
  The reference calls one helper function, the gather along the side axis (`take_along_axis`): wrap a negative index
  once, test that it lies in 0 … 1, gather, and fill with a not-a-number where the test fails.  Its 22 operations are
  stated over references that carry the type of the value they hold, and each moves its operands and its result along
  the equation "the reference's buffer type is the value's type".  For the literal references of this program that
  equation holds by computation, so every such transport is the identity and each operation is the same operation
  stated over the plain references.  That is what the 22 equations below say, one per operation, in program order.
-/
import proofs.«400814_j38165079392655_1_alg».proof.Proof.Gen.ReferenceIdeal
import Idealize.ShloMosaic.Lib.StableHlo.Run

noncomputable section

namespace Cert.ReferenceIdeal.Plain

open Cert.ReferenceIdeal Cert.ReferenceIdeal.Gen Idealize.ShloMosaic Idealize.ShloMosaic.TcCoe Idealize.SL.Sem Idealize.ShloMosaic.StableHlo

variable {F : FTy → Type} [FloatOps F]

theorem op0 : ((TRef.nullary (TRef.of (T := ⟨S_, .i32⟩) main_call0_c) (constantI S_ 32 0#32)) : HloOp τ sig (Elt F)) = nullary main_call0_c (constantI S_ 32 0#32) := rfl
theorem op1 : ((TRef.unary (TRef.of (T := ⟨S_, .i32⟩) main_call0_c) (TRef.of (T := ⟨S131072x17, .i32⟩) main_call0_v0) (broadcastInDim S131072x17 ![] bcast_S_S131072x17)) : HloOp τ sig (Elt F)) = unary main_call0_c main_call0_v0 ((broadcastInDim S131072x17 ![] bcast_S_S131072x17) : (⟨S_, .i32⟩ : BufTy).Contents (Elt F) → (⟨S131072x17, .i32⟩ : BufTy).Contents (Elt F)) := rfl
theorem op2 : ((TRef.binary (TRef.of (T := ⟨S131072x17, .i32⟩) main_arg1) (TRef.of (T := ⟨S131072x17, .i32⟩) main_call0_v0) (TRef.of (T := ⟨S131072x17, .i1⟩) main_call0_v1) (cmpi .slt)) : HloOp τ sig (Elt F)) = binary main_arg1 main_call0_v0 main_call0_v1 ((cmpi .slt) : (⟨S131072x17, .i32⟩ : BufTy).Contents (Elt F) → (⟨S131072x17, .i32⟩ : BufTy).Contents (Elt F) → (⟨S131072x17, .i1⟩ : BufTy).Contents (Elt F)) := rfl
theorem op3 : ((TRef.nullary (TRef.of (T := ⟨S_, .i32⟩) main_call0_c_0) (constantI S_ 32 2#32)) : HloOp τ sig (Elt F)) = nullary main_call0_c_0 (constantI S_ 32 2#32) := rfl
theorem op4 : ((TRef.unary (TRef.of (T := ⟨S_, .i32⟩) main_call0_c_0) (TRef.of (T := ⟨S131072x17, .i32⟩) main_call0_v2) (broadcastInDim S131072x17 ![] bcast_S_S131072x17)) : HloOp τ sig (Elt F)) = unary main_call0_c_0 main_call0_v2 ((broadcastInDim S131072x17 ![] bcast_S_S131072x17) : (⟨S_, .i32⟩ : BufTy).Contents (Elt F) → (⟨S131072x17, .i32⟩ : BufTy).Contents (Elt F)) := rfl
theorem op5 : ((TRef.binary (TRef.of (T := ⟨S131072x17, .i32⟩) main_arg1) (TRef.of (T := ⟨S131072x17, .i32⟩) main_call0_v2) (TRef.of (T := ⟨S131072x17, .i32⟩) main_call0_v3) addi) : HloOp τ sig (Elt F)) = binary main_arg1 main_call0_v2 main_call0_v3 ((addi) : (⟨S131072x17, .i32⟩ : BufTy).Contents (Elt F) → (⟨S131072x17, .i32⟩ : BufTy).Contents (Elt F) → (⟨S131072x17, .i32⟩ : BufTy).Contents (Elt F)) := rfl
theorem op6 : ((TRef.ternary (TRef.of (T := ⟨S131072x17, .i1⟩) main_call0_v1) (TRef.of (T := ⟨S131072x17, .i32⟩) main_call0_v3) (TRef.of (T := ⟨S131072x17, .i32⟩) main_arg1) (TRef.of (T := ⟨S131072x17, .i32⟩) main_call0_v4) select) : HloOp τ sig (Elt F)) = ternary main_call0_v1 main_call0_v3 main_arg1 main_call0_v4 ((select) : (⟨S131072x17, .i1⟩ : BufTy).Contents (Elt F) → (⟨S131072x17, .i32⟩ : BufTy).Contents (Elt F) → (⟨S131072x17, .i32⟩ : BufTy).Contents (Elt F) → (⟨S131072x17, .i32⟩ : BufTy).Contents (Elt F)) := rfl
theorem op7 : ((TRef.reshape (TRef.of (T := ⟨S131072x17, .i32⟩) main_call0_v4) (TRef.of (T := ⟨S131072x17x1, .i32⟩) main_call0_v5) rfl shapeCasts_S131072x17_S131072x17x1) : HloOp τ sig (Elt F)) = reshape main_call0_v4 main_call0_v5 rfl shapeCasts_S131072x17_S131072x17x1 := rfl
theorem op8 : ((TRef.nullary (TRef.of (T := ⟨S1, .i32⟩) main_call0_c_1) (constantI S1 32 1#32)) : HloOp τ sig (Elt F)) = nullary main_call0_c_1 (constantI S1 32 1#32) := rfl
theorem op9 : ((TRef.nullary (TRef.of (T := ⟨S_, .i32⟩) main_call0_c_2) (constantI S_ 32 0#32)) : HloOp τ sig (Elt F)) = nullary main_call0_c_2 (constantI S_ 32 0#32) := rfl
theorem op10 : ((TRef.unary (TRef.of (T := ⟨S_, .i32⟩) main_call0_c_2) (TRef.of (T := ⟨S131072x17x1, .i32⟩) main_call0_v6) (broadcastInDim S131072x17x1 ![] bcast_S_S131072x17x1)) : HloOp τ sig (Elt F)) = unary main_call0_c_2 main_call0_v6 ((broadcastInDim S131072x17x1 ![] bcast_S_S131072x17x1) : (⟨S_, .i32⟩ : BufTy).Contents (Elt F) → (⟨S131072x17x1, .i32⟩ : BufTy).Contents (Elt F)) := rfl
theorem op11 : ((TRef.binary (TRef.of (T := ⟨S131072x17x1, .i32⟩) main_call0_v5) (TRef.of (T := ⟨S131072x17x1, .i32⟩) main_call0_v6) (TRef.of (T := ⟨S131072x17x1, .i1⟩) main_call0_v7) (cmpi .sge)) : HloOp τ sig (Elt F)) = binary main_call0_v5 main_call0_v6 main_call0_v7 ((cmpi .sge) : (⟨S131072x17x1, .i32⟩ : BufTy).Contents (Elt F) → (⟨S131072x17x1, .i32⟩ : BufTy).Contents (Elt F) → (⟨S131072x17x1, .i1⟩ : BufTy).Contents (Elt F)) := rfl
theorem op12 : ((TRef.unary (TRef.of (T := ⟨S1, .i32⟩) main_call0_c_1) (TRef.of (T := ⟨S1x1x1, .i32⟩) main_call0_v8) (broadcastInDim S1x1x1 ![2] bcast_S1_S1x1x1_2)) : HloOp τ sig (Elt F)) = unary main_call0_c_1 main_call0_v8 ((broadcastInDim S1x1x1 ![2] bcast_S1_S1x1x1_2) : (⟨S1, .i32⟩ : BufTy).Contents (Elt F) → (⟨S1x1x1, .i32⟩ : BufTy).Contents (Elt F)) := rfl
theorem op13 : ((TRef.unary (TRef.of (T := ⟨S1x1x1, .i32⟩) main_call0_v8) (TRef.of (T := ⟨S131072x17x1, .i32⟩) main_call0_v9) (broadcastInDim S131072x17x1 ![0, 1, 2] bcast_S1x1x1_S131072x17x1_0_1_2)) : HloOp τ sig (Elt F)) = unary main_call0_v8 main_call0_v9 ((broadcastInDim S131072x17x1 ![0, 1, 2] bcast_S1x1x1_S131072x17x1_0_1_2) : (⟨S1x1x1, .i32⟩ : BufTy).Contents (Elt F) → (⟨S131072x17x1, .i32⟩ : BufTy).Contents (Elt F)) := rfl
theorem op14 : ((TRef.binary (TRef.of (T := ⟨S131072x17x1, .i32⟩) main_call0_v5) (TRef.of (T := ⟨S131072x17x1, .i32⟩) main_call0_v9) (TRef.of (T := ⟨S131072x17x1, .i1⟩) main_call0_v10) (cmpi .sle)) : HloOp τ sig (Elt F)) = binary main_call0_v5 main_call0_v9 main_call0_v10 ((cmpi .sle) : (⟨S131072x17x1, .i32⟩ : BufTy).Contents (Elt F) → (⟨S131072x17x1, .i32⟩ : BufTy).Contents (Elt F) → (⟨S131072x17x1, .i1⟩ : BufTy).Contents (Elt F)) := rfl
theorem op15 : ((TRef.binary (TRef.of (T := ⟨S131072x17x1, .i1⟩) main_call0_v7) (TRef.of (T := ⟨S131072x17x1, .i1⟩) main_call0_v10) (TRef.of (T := ⟨S131072x17x1, .i1⟩) main_call0_v11) andi) : HloOp τ sig (Elt F)) = binary main_call0_v7 main_call0_v10 main_call0_v11 ((andi) : (⟨S131072x17x1, .i1⟩ : BufTy).Contents (Elt F) → (⟨S131072x17x1, .i1⟩ : BufTy).Contents (Elt F) → (⟨S131072x17x1, .i1⟩ : BufTy).Contents (Elt F)) := rfl
theorem op16 : ((TRef.nullary (TRef.of (T := ⟨S_, .i1⟩) main_call0_c_3) (constantI S_ 1 1#1)) : HloOp τ sig (Elt F)) = nullary main_call0_c_3 (constantI S_ 1 1#1) := rfl
/-- The in-range mask.  Its function folds `and` over every position of the array, so the two spellings are not compared
    by unfolding it: they are the same function once the three transports are removed, each an identity. -/
theorem op17 : ((TRef.binary (TRef.of (T := ⟨S131072x17x1, .i1⟩) main_call0_v11) (TRef.of (T := ⟨S_, .i1⟩) main_call0_c_3) (TRef.of (T := ⟨S131072x17, .i1⟩) main_call0_v12) (fun x v => Host.reduce IntOp.andi x v reducesTo_S131072x17x1_S131072x17_d2 h_S_)) : HloOp τ sig (Elt F)) = binary main_call0_v11 main_call0_c_3 main_call0_v12 ((fun x v => Host.reduce IntOp.andi x v reducesTo_S131072x17x1_S131072x17_d2 h_S_) : (⟨S131072x17x1, .i1⟩ : BufTy).Contents (Elt F) → (⟨S_, .i1⟩ : BufTy).Contents (Elt F) → (⟨S131072x17, .i1⟩ : BufTy).Contents (Elt F)) := by
  show StableHlo.binary main_call0_v11 main_call0_c_3 main_call0_v12 _ _ _ _ = _
  refine congrArg (fun g => StableHlo.binary (τ := τ) (Val := Elt F) main_call0_v11 main_call0_c_3 main_call0_v12 g) ?_
  funext u v
  exact (cast_eq _ _).trans
    (congrArg₂ (fun x v => Host.reduce IntOp.andi x v reducesTo_S131072x17x1_S131072x17_d2 h_S_) (cast_eq _ u) (cast_eq _ v))
theorem op18 : ((TRef.binary (TRef.of (T := ⟨S131072x2, .f32⟩) main_v14) (TRef.of (T := ⟨S131072x17x1, .i32⟩) main_call0_v5) (TRef.of (T := ⟨S131072x17, .f32⟩) main_call0_v13) (fun x i => Host.gather gather_S131072x2_S131072x17x1_S131072x17_n_1_0_0_1_2_11 x i)) : HloOp τ sig (Elt F)) = binary main_v14 main_call0_v5 main_call0_v13 ((fun x i => Host.gather gather_S131072x2_S131072x17x1_S131072x17_n_1_0_0_1_2_11 x i) : (⟨S131072x2, .f32⟩ : BufTy).Contents (Elt F) → (⟨S131072x17x1, .i32⟩ : BufTy).Contents (Elt F) → (⟨S131072x17, .f32⟩ : BufTy).Contents (Elt F)) := rfl
theorem op19 : ((TRef.nullary (TRef.of (T := ⟨S_, .f32⟩) main_call0_cst) (constant S_ .f32 0x7FC00000#32)) : HloOp τ sig (Elt F)) = nullary main_call0_cst (constant S_ .f32 0x7FC00000#32) := rfl
theorem op20 : ((TRef.unary (TRef.of (T := ⟨S_, .f32⟩) main_call0_cst) (TRef.of (T := ⟨S131072x17, .f32⟩) main_call0_v14) (broadcastInDim S131072x17 ![] bcast_S_S131072x17)) : HloOp τ sig (Elt F)) = unary main_call0_cst main_call0_v14 ((broadcastInDim S131072x17 ![] bcast_S_S131072x17) : (⟨S_, .f32⟩ : BufTy).Contents (Elt F) → (⟨S131072x17, .f32⟩ : BufTy).Contents (Elt F)) := rfl
theorem op21 : ((TRef.ternary (TRef.of (T := ⟨S131072x17, .i1⟩) main_call0_v12) (TRef.of (T := ⟨S131072x17, .f32⟩) main_call0_v13) (TRef.of (T := ⟨S131072x17, .f32⟩) main_call0_v14) (TRef.of (T := ⟨S131072x17, .f32⟩) main_v15) select) : HloOp τ sig (Elt F)) = ternary main_call0_v12 main_call0_v13 main_call0_v14 main_v15 ((select) : (⟨S131072x17, .i1⟩ : BufTy).Contents (Elt F) → (⟨S131072x17, .f32⟩ : BufTy).Contents (Elt F) → (⟨S131072x17, .f32⟩ : BufTy).Contents (Elt F) → (⟨S131072x17, .f32⟩ : BufTy).Contents (Elt F)) := rfl

end Cert.ReferenceIdeal.Plain

end
-- ==== Proof.Law.lean ====
/-
  The one algebraic fact that joins the two programs.  A word's path visits 17 nodes of a binary tree; at node d it
  takes side s_d ∈ {0, 1}.  Summing the log-probability of the side taken at each node,
      ∑_d  ℓ(s_d),
  is the same as counting: with n₁ = ∑_d s_d the number of nodes where side 1 is taken, the sum is
      (17 − n₁) · ℓ(0) + n₁ · ℓ(1).
  This holds for ALL extended reals ℓ(0), ℓ(1), infinite ones included: the coefficients are non-negative, so the
  product distributes over their sum, and 0 · (±∞) = 0 on the extended reals, so a side never taken contributes nothing.
  No finiteness of ℓ is used.
-/
import Mathlib.Data.EReal.Operations
import Mathlib.Algebra.BigOperators.Fin
import Idealize.ShloMosaic.PureOps.Ideal

noncomputable section

namespace Cert.PathLogProb

open Idealize.ShloMosaic

/-- A 32-bit side that is the word 0 or the word 1, read as a signed integer, is the real 0 or 1. -/
theorem side_toInt {b : BitVec 32} (hb : b = 0#32 ∨ b = 1#32) :
    ((b.toInt : ℝ) : EReal) = if b = 0#32 then 0 else 1 := by
  rcases hb with rfl | rfl
  · simp
  · have h : (1#32 : BitVec 32) ≠ 0#32 := by decide
    rw [if_neg h]
    have : (1#32 : BitVec 32).toInt = 1 := by decide
    rw [this]; simp

/-- One node: the log-probability of the side taken is (1 − s) · ℓ(0) + s · ℓ(1) for s ∈ {0, 1}. -/
theorem pick_eq (s : ℝ) (hs : s = 0 ∨ s = 1) (l0 l1 : EReal) :
    (if s = 0 then l0 else l1) = ((1 - s : ℝ) : EReal) * l0 + (s : EReal) * l1 := by
  rcases hs with rfl | rfl
  · simp
  · have h : (1 : ℝ) ≠ 0 := one_ne_zero
    rw [if_neg h]; simp

/-- Non-negative real coefficients may be summed before they multiply an extended real. -/
theorem sum_coe_mul {ι : Type*} (t : Finset ι) (c : ι → ℝ) (hc : ∀ d, 0 ≤ c d) (l : EReal) :
    ∑ d ∈ t, ((c d : ℝ) : EReal) * l = ((∑ d ∈ t, c d : ℝ) : EReal) * l := by
  classical
  induction t using Finset.induction_on with
  | empty => simp
  | insert a t ha ih =>
    rw [Finset.sum_insert ha, Finset.sum_insert ha, ih, EReal.coe_add,
      EReal.right_distrib_of_nonneg (EReal.coe_nonneg.2 (hc a)) (EReal.coe_nonneg.2 (Finset.sum_nonneg fun d _ => hc d))]

/-- A finite sum of reals, coerced, is the sum of the coercions. -/
theorem coe_sum {ι : Type*} (t : Finset ι) (c : ι → ℝ) :
    ((∑ d ∈ t, c d : ℝ) : EReal) = ∑ d ∈ t, ((c d : ℝ) : EReal) := by
  classical
  induction t using Finset.induction_on with
  | empty => simp
  | insert a t ha ih => rw [Finset.sum_insert ha, Finset.sum_insert ha, EReal.coe_add, ih]

/-- THE LAW.  Over n nodes with sides s_d ∈ {0, 1}: the sum of the picked values is
    (n − ∑ s_d) · ℓ(0) + (∑ s_d) · ℓ(1), the sums taken on the extended reals as the kernel takes them. -/
theorem sum_pick (n : ℕ) (s : Fin n → ℝ) (hs : ∀ d, s d = 0 ∨ s d = 1) (l0 l1 : EReal) :
    ∑ d, (if s d = 0 then l0 else l1)
      = (((n : ℝ) : EReal) - ∑ d, ((s d : ℝ) : EReal)) * l0 + (∑ d, ((s d : ℝ) : EReal)) * l1 := by
  have h0 : ∀ d, 0 ≤ 1 - s d := fun d => by rcases hs d with h | h <;> rw [h] <;> norm_num
  have h1 : ∀ d, 0 ≤ s d := fun d => by rcases hs d with h | h <;> rw [h] <;> norm_num
  have e : ∑ d, (if s d = 0 then l0 else l1) = ∑ d, (((1 - s d : ℝ) : EReal) * l0 + ((s d : ℝ) : EReal) * l1) :=
    Finset.sum_congr rfl fun d _ => pick_eq (s d) (hs d) l0 l1
  rw [e, Finset.sum_add_distrib, sum_coe_mul _ _ h0, sum_coe_mul _ _ h1, ← coe_sum, ← EReal.coe_sub]
  congr 3
  rw [Finset.sum_sub_distrib]; simp

/-- THE LAW over the 32-bit sides themselves: each side the word 0 or the word 1, the count taken of the sides read as
    signed integers (which is how the kernel converts them). -/
theorem sum_pick_sides (n : ℕ) (b : Fin n → BitVec 32) (hb : ∀ d, b d = 0#32 ∨ b d = 1#32) (l0 l1 : EReal) :
    ∑ d, (if b d = 0#32 then l0 else l1)
      = (((n : ℝ) : EReal) - ∑ d, (((b d).toInt : ℝ) : EReal)) * l0 + (∑ d, (((b d).toInt : ℝ) : EReal)) * l1 := by
  have hs : ∀ d, ((b d).toInt : ℝ) = 0 ∨ ((b d).toInt : ℝ) = 1 := fun d => by
    rcases hb d with h | h <;> rw [h]
    · left; simp
    · right; have : (1#32 : BitVec 32).toInt = 1 := by decide
      rw [this]; simp
  rw [← sum_pick n (fun d => ((b d).toInt : ℝ)) hs l0 l1]
  refine Finset.sum_congr rfl fun d _ => ?_
  rcases hb d with h | h <;> rw [h]
  · simp
  · have h1 : (1#32 : BitVec 32) ≠ 0#32 := by decide
    have h2 : (1#32 : BitVec 32).toInt = 1 := by decide
    rw [if_neg h1, h2]; simp

end Cert.PathLogProb

end
-- ==== Proof.RefValue.lean ====
/-
  The reference's result is the specification.

  The reference computes, for word r, the two logs ℓ(r, 0), ℓ(r, 1) (a two-layer network: an affine map, the logistic
  written out as 1 / (1 + e^(−z)), a second affine map, the log), then takes, at each of the 17 nodes d of the word's
  path, the log of the side sides[r, d] (a gather along the side axis, batched over the words, with its in-range mask and
  its fill value), and sums the 17 taken values from 0.

  Read at one element:
    * the logs are Spec's sideLog (the index functions of the two contractions and of the bias broadcasts meet the
      coordinates (r, k), (h, k), (j, h); the constant word 0x3F800000 denotes 1);
    * with every side the word 0 or the word 1, the start index of (r, d) is the side itself (it is not negative, so no
      2 is added), it lies in [0, 1], so the mask is true everywhere and the fill is never read, and the gather reads
      row r (the batching axis) at column min(side, 1) = side (the collapsed axis, clamped);
    * the sum over d of the picked logs is (17 − n₁) · ℓ(r, 0) + n₁ · ℓ(r, 1) by the law of Law.lean.
-/
import proofs.«400814_j38165079392655_1_alg».proof.Proof.RefRead
import proofs.«400814_j38165079392655_1_alg».proof.Proof.Spec
import proofs.«400814_j38165079392655_1_alg».proof.Proof.Law

noncomputable section

namespace Cert.PathLogProb
open Idealize.ShloMosaic Idealize.ShloMosaic.ValueIdx Cert.ReferenceIdeal Cert.ReferenceIdeal.ReadP

namespace Reference

/-! ## The logs -/

/-- The f32 word of 1.0 denotes the real 1. -/
theorem ofBits_one : Ideal.ofBits .f32 0x3F800000#32 = 1 := by
  simp [Ideal.ofBits, Ideal.ieee, -EReal.coe_mul]; norm_num

/-- The reference's hidden layer at (r, h): 1 / (1 + e^(−z)) of the affine map is the logistic of it. -/
theorem ref_hidden (x0 : FVec Ideal S131072x300 .f32) (x2 : FVec Ideal S512x300 .f32) (x3 : FVec Ideal S512 .f32)
    (r : Fin 131072) (h : Fin 512) :
    val_main_v9 (F := Ideal) x0 x2 x3 (ix2 r h) = hidden x0 x2 x3 r h := by
  rw [val_main_v9_apply, val_main_v8_apply, val_main_cst_0_apply, val_main_v7_apply, val_main_v6_apply,
    val_main_cst_apply, val_main_v5_apply, val_main_v4_apply, val_main_v3_apply, val_main_v0_apply,
    val_main_v2_apply, val_main_v1_apply]
  simp only [Ideal.hostDivf_def, Ideal.addf_def, Ideal.hostUnary_exp_def, Ideal.hostNegf_def, Ideal.negf_def,
    Ideal.ofBits_def, ofBits_one]
  have el : ∀ k : Fin 300, lidx_main_v0 (ix2 r h) k = ix2 r k := fun k => funext fun a => Fin.ext (by
    match a with | ⟨0, _⟩ => rfl | ⟨1, _⟩ => rfl)
  have er : ∀ k : Fin 300, ridx_main_v0 (ix2 r h) k = ix2 h k := fun k => funext fun a => Fin.ext (by
    match a with | ⟨0, _⟩ => rfl | ⟨1, _⟩ => rfl)
  have eb : idx_main_v1 (idx_main_v2 (ix2 r h)) = ix1 h := funext fun a => Fin.ext (by
    match a with | ⟨0, _⟩ => rfl)
  simp only [el, er, eb]
  rfl

/-- The reference's logs at (r, j) are the specification's. -/
theorem ref_log (x0 : FVec Ideal S131072x300 .f32) (x2 : FVec Ideal S512x300 .f32) (x3 : FVec Ideal S512 .f32)
    (x4 : FVec Ideal S2x512 .f32) (x5 : FVec Ideal S2 .f32) (r : Fin 131072) (j : Fin 2) :
    val_main_v14 (F := Ideal) x0 x2 x3 x4 x5 (ix2 r j) = sideLog x0 x2 x3 x4 x5 r j := by
  rw [val_main_v14_apply, val_main_v13_apply, val_main_v10_apply, val_main_v12_apply, val_main_v11_apply]
  simp only [Ideal.hostUnary_log_def, Ideal.addf_def]
  have el : ∀ k : Fin 512, lidx_main_v10 (ix2 r j) k = ix2 r k := fun k => funext fun a => Fin.ext (by
    match a with | ⟨0, _⟩ => rfl | ⟨1, _⟩ => rfl)
  have er : ∀ k : Fin 512, ridx_main_v10 (ix2 r j) k = ix2 j k := fun k => funext fun a => Fin.ext (by
    match a with | ⟨0, _⟩ => rfl | ⟨1, _⟩ => rfl)
  have eb : idx_main_v11 (idx_main_v12 (ix2 r j)) = ix1 j := funext fun a => Fin.ext (by
    match a with | ⟨0, _⟩ => rfl)
  simp only [el, er, eb, ref_hidden]
  rfl

/-! ## The gather read at an index -/

/-- The start-index read: on the batching axis the row, on the collapsed axis the clamped start index. -/
theorem gather_read {α : Type} {w : Nat} (x : S131072x2.Idx → α) (idx : IVec S131072x17x1 w) (r : Fin 131072) (d : Fin 17) :
    Host.gather gather_S131072x2_S131072x17x1_S131072x17_n_1_0_0_1_2_11 x idx (ix2 r d)
      = x (ix2 r ⟨min (idx (ix3 r d 0)).toInt.toNat 1, by omega⟩) := by
  unfold Host.gather
  congr 1
  funext a
  refine Fin.ext ?_
  match a with
  | ⟨0, _⟩ =>
    show gather_S131072x2_S131072x17x1_S131072x17_n_1_0_0_1_2_11.start (ix2 r d) idx 0
      + gather_S131072x2_S131072x17x1_S131072x17_n_1_0_0_1_2_11.batchCoord (ix2 r d) 0
      + gather_S131072x2_S131072x17x1_S131072x17_n_1_0_0_1_2_11.offCoord (ix2 r d) 0 = r.val
    have hb : (0 : Fin S131072x2.rank) ∈ gather_S131072x2_S131072x17x1_S131072x17_n_1_0_0_1_2_11.operandBatchingDims :=
      List.mem_singleton.mpr rfl
    rw [GatherDims.start_batching _ _ _ _ hb,
      GatherDims.offCoord_eq_zero _ _ _ (fun h => ((GatherDims.mem_sKept _ _).mp h).2 hb)]
    simp only [Nat.zero_add, Nat.add_zero]
    unfold GatherDims.batchCoord
    rw [dif_pos hb]
    rfl
  | ⟨1, _⟩ =>
    show gather_S131072x2_S131072x17x1_S131072x17_n_1_0_0_1_2_11.start (ix2 r d) idx 1
      + gather_S131072x2_S131072x17x1_S131072x17_n_1_0_0_1_2_11.batchCoord (ix2 r d) 1
      + gather_S131072x2_S131072x17x1_S131072x17_n_1_0_0_1_2_11.offCoord (ix2 r d) 1 = min (idx (ix3 r d 0)).toInt.toNat 1
    have hnb : (1 : Fin S131072x2.rank) ∉ gather_S131072x2_S131072x17x1_S131072x17_n_1_0_0_1_2_11.operandBatchingDims := by decide
    have hc : (1 : Fin S131072x2.rank) ∈ gather_S131072x2_S131072x17x1_S131072x17_n_1_0_0_1_2_11.collapsedSliceDims :=
      List.mem_singleton.mpr rfl
    have hm : (1 : Fin S131072x2.rank) ∈ gather_S131072x2_S131072x17x1_S131072x17_n_1_0_0_1_2_11.startIndexMap :=
      List.mem_singleton.mpr rfl
    rw [GatherDims.batchCoord_eq_zero _ _ _ hnb,
      GatherDims.offCoord_eq_zero _ _ _ (fun h => ((GatherDims.mem_sKept _ _).mp h).1 hc)]
    simp only [Nat.add_zero]
    unfold GatherDims.start
    rw [dif_pos hm]
    have hsi : gather_S131072x2_S131072x17x1_S131072x17_n_1_0_0_1_2_11.siIdx (ix2 r d)
        ⟨List.idxOf (1 : Fin S131072x2.rank) gather_S131072x2_S131072x17x1_S131072x17_n_1_0_0_1_2_11.startIndexMap,
          List.idxOf_lt_length_iff.2 hm⟩ = ix3 r d 0 := by
      funext b; refine Fin.ext ?_
      match b with
      | ⟨0, _⟩ => rfl
      | ⟨1, _⟩ => rfl
      | ⟨2, _⟩ => rfl
    rw [hsi]
    rfl

/-! ## The start indices and the mask -/

/-- A side that is the word 0 or 1 is not negative, so the normalised start index is the side itself. -/
theorem start_apply (x1 : IVec S131072x17 32) (hs : ∀ i, x1 i = 0#32 ∨ x1 i = 1#32) (i : S131072x17x1.Idx) :
    val_main_call0_v5 (F := Ideal) x1 i = x1 (idx_main_call0_v5 i) := by
  rw [val_main_call0_v5_apply, val_main_call0_v4_apply, val_main_call0_v1_apply, val_main_call0_v0_apply,
    val_main_call0_c_apply, val_main_call0_v3_apply, val_main_call0_v2_apply, val_main_call0_c_0_apply]
  rcases hs (idx_main_call0_v5 i) with h | h <;> rw [h] <;> rfl

/-- The start index of word r at node d is that word's side at that node. -/
theorem start_eq (x1 : IVec S131072x17 32) (hs : ∀ i, x1 i = 0#32 ∨ x1 i = 1#32) (r : Fin 131072) (d : Fin 17) :
    val_main_call0_v5 (F := Ideal) x1 (ix3 r d 0) = x1 (ix2 r d) := by
  have hk : idx_main_call0_v5 (ix3 r d (0 : Fin 1)) = ix2 r d := funext fun a => Fin.ext (by
    match a with
    | ⟨0, _⟩ => show ((r.val * 17 + d.val) * 1 + 0) / 17 = r.val; omega
    | ⟨1, _⟩ => show ((r.val * 17 + d.val) * 1 + 0) % 17 = d.val; omega)
  rw [start_apply x1 hs, hk]

/-- Every start index lies in [0, 1]: the in-range test holds at every position. -/
theorem inrange_apply (x1 : IVec S131072x17 32) (hs : ∀ i, x1 i = 0#32 ∨ x1 i = 1#32) (i : S131072x17x1.Idx) :
    val_main_call0_v11 (F := Ideal) x1 i = 1#1 := by
  rw [val_main_call0_v11_apply, val_main_call0_v7_apply, val_main_call0_v10_apply, start_apply x1 hs,
    val_main_call0_v6_apply, val_main_call0_c_2_apply, val_main_call0_v9_apply, val_main_call0_v8_apply,
    val_main_call0_c_1_apply]
  rcases hs (idx_main_call0_v5 i) with h | h <;> rw [h] <;> rfl

/-- A conjunction of true bits, from the true bit, is the true bit. -/
theorem foldl_andi_one {β : Type} (l : List β) :
    l.foldl (fun (b : BitVec 1) (_ : β) => IntOp.andi b 1#1) 1#1 = 1#1 := by
  induction l with
  | nil => rfl
  | cons a l ih => exact ih

/-- So the mask, the conjunction of the in-range tests along the unit axis, is true everywhere. -/
theorem mask_one (x1 : IVec S131072x17 32) (hs : ∀ i, x1 i = 0#32 ∨ x1 i = 1#32) (j : S131072x17.Idx) :
    val_main_call0_v12 (F := Ideal) x1 j = 1#1 := by
  unfold val_main_call0_v12 Host.reduce
  have hx : val_main_call0_v11 (F := Ideal) x1 = fun _ => 1#1 := funext (inrange_apply x1 hs)
  rw [hx]
  exact foldl_andi_one _

/-! ## The take at one node -/

/-- With every side 0 or 1, the value taken for word r at node d is the log of the side taken there. -/
theorem ref_take (x0 : FVec Ideal S131072x300 .f32) (x1 : IVec S131072x17 32) (x2 : FVec Ideal S512x300 .f32)
    (x3 : FVec Ideal S512 .f32) (x4 : FVec Ideal S2x512 .f32) (x5 : FVec Ideal S2 .f32)
    (hs : ∀ i, x1 i = 0#32 ∨ x1 i = 1#32) (r : Fin 131072) (d : Fin 17) :
    val_main_v15 (F := Ideal) x0 x1 x2 x3 x4 x5 (ix2 r d)
      = if x1 (ix2 r d) = 0#32 then sideLog x0 x2 x3 x4 x5 r 0 else sideLog x0 x2 x3 x4 x5 r 1 := by
  rw [val_main_v15_apply, mask_one x1 hs, select_one]
  unfold val_main_call0_v13
  rw [gather_read]
  have e := start_eq x1 hs r d
  rcases hs (ix2 r d) with h | h
  · rw [if_pos h]
    have hc : (⟨min (val_main_call0_v5 (F := Ideal) x1 (ix3 r d 0)).toInt.toNat 1, by omega⟩ : Fin 2) = 0 :=
      Fin.ext (by
        show min (val_main_call0_v5 (F := Ideal) x1 (ix3 r d 0)).toInt.toNat 1 = 0
        rw [e, h]; rfl)
    rw [hc]
    exact ref_log x0 x2 x3 x4 x5 r 0
  · have h1 : (1#32 : BitVec 32) ≠ 0#32 := by decide
    rw [h, if_neg h1]
    have hc : (⟨min (val_main_call0_v5 (F := Ideal) x1 (ix3 r d 0)).toInt.toNat 1, by omega⟩ : Fin 2) = 1 :=
      Fin.ext (by
        show min (val_main_call0_v5 (F := Ideal) x1 (ix3 r d 0)).toInt.toNat 1 = 1
        rw [e, h]; rfl)
    rw [hc]
    exact ref_log x0 x2 x3 x4 x5 r 1

end Reference

/-! ## The result -/

/-- With every side 0 or 1, the reference's result array is the specification. -/
theorem reference_eq (x0 : FVec Ideal S131072x300 .f32) (x1 : IVec S131072x17 32) (x2 : FVec Ideal S512x300 .f32)
    (x3 : FVec Ideal S512 .f32) (x4 : FVec Ideal S2x512 .f32) (x5 : FVec Ideal S2 .f32)
    (hs : ∀ i, x1 i = 0#32 ∨ x1 i = 1#32) :
    Cert.ReferenceIdeal.ReadP.val_main_v16 (F := Ideal) x0 x1 x2 x3 x4 x5 = pathLogProb x0 x1 x2 x3 x4 x5 := by
  funext i
  obtain ⟨r, rfl⟩ : ∃ r : Fin 131072, i = ix1 r := ⟨i 0, eq_ix1 i⟩
  rw [val_main_v16_apply, val_main_cst_1_apply, Ideal.ofBits_def, Ideal.ofBits_zero_f32, zero_add, pathLogProb_apply]
  have hidx : ∀ d : Fin 17, idx_main_v16 (ix1 r) d = ix2 r d := fun d => funext fun a => Fin.ext (by
    match a with | ⟨0, _⟩ => rfl | ⟨1, _⟩ => rfl)
  rw [Finset.sum_congr rfl (fun d _ => (congrArg _ (hidx d)).trans (Reference.ref_take x0 x1 x2 x3 x4 x5 hs r d)),
    sum_pick_sides 17 (fun d => x1 (ix2 r d)) (fun d => hs (ix2 r d))]
  unfold wordValue sideCount
  simp only [Nat.cast_ofNat]

end Cert.PathLogProb

end
-- ==== Proof.SidesRange.lean ====
import proofs.«400814_j38165079392655_1_alg».proof.Pre_finite_inputs
import Idealize.ShloMosaic.Lib.ReduceAll
import Idealize.ShloMosaic.Lib.ValueIdx

/-!
# The sides are bits

The precondition ends in two conjuncts on the integer array of sides: every side is at least 0
and every side is below 2, both read as signed 32-bit words. Each conjunct is an all-reduction by
`and` of an elementwise comparison against a broadcast scalar. Read back at one index, the two
comparisons confine the signed value of the word to `{0, 1}`, and a 32-bit word is determined by its
signed value, so the word is `0` or `1`.
-/

noncomputable section

namespace Cert.PathLogProb
open Idealize.ShloMosaic

/-- A 32-bit word whose signed value is at least 0 and below 2 is the word 0 or the word 1. -/
theorem word_zero_or_one (b : BitVec 32)
    (h0 : IntOp.cmpi .sge b 0#32 = 1#1) (h2 : IntOp.cmpi .slt b 2#32 = 1#1) :
    b = 0#32 ∨ b = 1#32 := by
  rw [IntOp.cmpi_sge] at h0
  rw [IntOp.cmpi_slt] at h2
  have e0 : (0#32 : BitVec 32).toInt = 0 := by decide
  have e1 : (1#32 : BitVec 32).toInt = 1 := by decide
  have e2 : (2#32 : BitVec 32).toInt = 2 := by decide
  rw [e0] at h0
  rw [e2] at h2
  rcases (show b.toInt = 0 ∨ b.toInt = 1 by omega) with hb | hb
  · exact Or.inl (BitVec.eq_of_toInt_eq (hb.trans e0.symm))
  · exact Or.inr (BitVec.eq_of_toInt_eq (hb.trans e1.symm))

/-- The result of the precondition has exactly one index. -/
local instance : Subsingleton Cert.Pre_finite_inputs.S_.Idx := ⟨fun a b => funext fun d => d.elim0⟩

/-- The tail of the precondition is a conjunction whose last two conjuncts are the two range tests
    on the sides; when it holds, both tests hold at every index. -/
theorem sides_of_part1 [Cert.Pre_finite_inputs.Facts] {F : FTy → Type} [FloatOps F]
    (x1 : IVec Cert.Pre_finite_inputs.S131072x17 32) (x5 : FVec F Cert.Pre_finite_inputs.S2 .f32)
    (c : IVec Cert.Pre_finite_inputs.S_ 1) (m : IVec Cert.Pre_finite_inputs.S2x512 1)
    (h : Cert.Pre_finite_inputs.fn_part1 (F := F) x1 x5 c m ValueIdx.ix0 = 1#1) :
    ∀ i, x1 i = 0#32 ∨ x1 i = 1#32 := by
  intro i
  unfold Cert.Pre_finite_inputs.fn_part1 at h
  dsimp only at h
  -- the outer conjunction: everything before, and "every side is below 2"
  obtain ⟨h27, h30⟩ := IntOp.andi_eq_one.1 h
  -- the next conjunction: the float conjuncts, and "every side is at least 0"
  obtain ⟨-, h26⟩ := IntOp.andi_eq_one.1 h27
  have hge := Host.reduce_andi_all _ _ _ _ _ h26 i
  have hlt := Host.reduce_andi_all _ _ _ _ _ h30 i
  -- a broadcast scalar reads the scalar at every index
  exact word_zero_or_one (x1 i) hge hlt

/-- Under the precondition every side is the word 0 or the word 1. -/
theorem sides_of_pre [Cert.Pre_finite_inputs.Facts] {F : FTy → Type} [FloatOps F]
    (x0 : FVec F Cert.Pre_finite_inputs.S131072x300 .f32) (x1 : IVec Cert.Pre_finite_inputs.S131072x17 32)
    (x2 : FVec F Cert.Pre_finite_inputs.S512x300 .f32) (x3 : FVec F Cert.Pre_finite_inputs.S512 .f32)
    (x4 : FVec F Cert.Pre_finite_inputs.S2x512 .f32) (x5 : FVec F Cert.Pre_finite_inputs.S2 .f32)
    (h : Cert.Pre_finite_inputs.fn (F := F) x0 x1 x2 x3 x4 x5 = fun _ => 1#1) :
    ∀ i, x1 i = 0#32 ∨ x1 i = 1#32 := by
  have h1 := congrFun h ValueIdx.ix0
  unfold Cert.Pre_finite_inputs.fn at h1
  exact sides_of_part1 (F := F) x1 x5 _ _ h1

end Cert.PathLogProb

end
-- ==== Proof.lean ====
/-
  Hierarchical softmax over a binary tree: the log-probability of each word's 17-node path.

  Both programs compute, for each of 131072 words r, the two log-outputs ℓ(r, 0), ℓ(r, 1) of a small network
  (hidden layer σ(x·W1ᵀ + b1), output layer hidden·W2ᵀ + b2, then log).  The reference then gathers, at each of the 17
  nodes d of the word's path, the log-output of the side taken there and sums:  ∑_d ℓ(r, sides[r, d]).  The kernel
  instead counts n₁ = ∑_d sides[r, d] and returns  (17 − n₁) · ℓ(r, 0) + n₁ · ℓ(r, 1).

  The two agree when every side is 0 or 1, which is what the precondition now says of the sides (a side of a node of a
  binary tree; outside that range the two programs differ).  The agreement is the counting law of Proof/Law.lean, which
  holds for all extended reals ℓ, infinite ones included, so the finiteness of the float inputs is never used.

  Read at exact values the two networks are the same function term by term: a change of float format is the identity,
  the kernel's products into a zero accumulator and the host's dot_general are the same finite sums, and the kernel's
  logistic is the host's 1 / (1 + e^(−z)) by definition.  Proof/Spec.lean states the common function; Proof/BlockValue.lean
  and Proof/KernelValue.lean show the kernel's output array is it (row q of grid point t's block being row 2048·t + q);
  Proof/RefValue.lean shows the reference's result is it under the sides' range, which Proof/SidesRange.lean reads out of
  the precondition.  The ideal pass rewrote nothing, so the kernel's idealization is its own text read at exact values.
-/
import proofs.«400814_j38165079392655_1_alg».proof.Defs
import proofs.«400814_j38165079392655_1_alg».proof.Proof.Gen.Kernel
import proofs.«400814_j38165079392655_1_alg».proof.Proof.Gen.Kernel.Frame
import proofs.«400814_j38165079392655_1_alg».proof.Proof.Gen.KernelIdeal
import proofs.«400814_j38165079392655_1_alg».proof.Proof.Gen.KernelIdeal.Frame
import proofs.«400814_j38165079392655_1_alg».proof.Proof.Gen.KernelIdeal.Value
import proofs.«400814_j38165079392655_1_alg».proof.Proof.Gen.ReferenceIdeal
import proofs.«400814_j38165079392655_1_alg».proof.Proof.Gen.Pre_finite_inputs
import proofs.«400814_j38165079392655_1_alg».proof.Proof.KernelValue
import proofs.«400814_j38165079392655_1_alg».proof.Proof.RefRun
import proofs.«400814_j38165079392655_1_alg».proof.Proof.RefValue
import proofs.«400814_j38165079392655_1_alg».proof.Proof.SidesRange
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read at exact values. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories that agree on the arguments, with every side 0 or 1, both programs end with the same result: the
    kernel's array is the specification of its arguments, the reference's result is the specification of its own, and
    the arguments agree. -/
theorem algebraic : Cert.algebraic_KernelIdeal_ReferenceIdeal := by
  intro m ρ m' ρ' hpre hagree
  refine ⟨fun c => Cert.PathLogProb.Kernel.target m c, Cert.PathLogProb.Kernel.run m ρ, ?_⟩
  refine (θ_run Cert.ReferenceIdeal.defs _ _).mono (fun _ h c => ⟨(h c).1.trans ?_, (h c).2⟩)
    (Cert.ReferenceIdeal.ValueP.run (F := Ideal) m' ρ')
  have hsides := Cert.PathLogProb.sides_of_pre _ _ _ _ _ _ (hpre c)
  rw [Cert.ReferenceIdeal.ReadP.val_main_v16_eq, (hagree c).1, (hagree c).2.1, (hagree c).2.2.1, (hagree c).2.2.2.1,
    (hagree c).2.2.2.2.1, (hagree c).2.2.2.2.2]
  exact Cert.PathLogProb.reference_eq _ _ _ _ _ _ hsides

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
